-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn_part1 {F : FTy → Type} [FloatOps F] (main_v13 : IVec S_ 1) (main_v16 : IVec S4096 1) : IVec S_ 1 :=
  let main_c_5 : IVec S_ 1 := constantI S_ 1 1#1
  let main_v17 : IVec S_ 1 := (fun x v => Host.reduce IntOp.andi x v reducesTo_S4096_S_d0 h_S_) main_v16 main_c_5
  let main_v18 : IVec S_ 1 := andi main_v13 main_v17
  main_v18

def fn {F : FTy → Type} [FloatOps F] (main_arg0 : FVec F S8192x4096 .f32) (main_arg1 : FVec F S4096x4096 .f32) (main_arg2 : FVec F S4096x4096 .f32) (main_arg3 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096x4096 .f32 := Host.absf main_arg2
  let main_cst_2 : FVec F S_ .f32 := constant S_ .f32 0x7F800000#32
  let main_v10 : FVec F S4096x4096 .f32 := broadcastInDim S4096x4096 ![] bcast_S_S4096x4096 main_cst_2
  let main_v11 : IVec S4096x4096 1 := cmpf .olt main_v9 main_v10
  let main_c_3 : IVec S_ 1 := constantI S_ 1 1#1
  let main_v12 : IVec S_ 1 := (fun x v => Host.reduce IntOp.andi x v reducesTo_S4096x4096_S_d0_1 h_S_) main_v11 main_c_3
  let main_v13 : IVec S_ 1 := andi main_v8 main_v12
  let main_v14 : FVec F S4096 .f32 := Host.absf main_arg3
  let main_cst_4 : FVec F S_ .f32 := constant S_ .f32 0x7F800000#32
  let main_v15 : FVec F S4096 .f32 := broadcastInDim S4096 ![] bcast_S_S4096 main_cst_4
  let main_v16 : IVec S4096 1 := cmpf .olt main_v14 main_v15
  fn_part1 (F := F) main_v13 main_v16
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 11
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S1x4096, .f32⟩
  | .hbm, ⟨5, _⟩ => ⟨S8192x4096, .f32⟩
  | .local _ .vmem, ⟨0, _⟩ => ⟨S512x1024, .f32⟩
  | .local _ .vmem, ⟨1, _⟩ => ⟨S512x1024, .f32⟩
  | .local _ .vmem, ⟨2, _⟩ => ⟨S1024x1024, .f32⟩
  | .local _ .vmem, ⟨3, _⟩ => ⟨S1024x1024, .f32⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 4, 4], ![false, false, false]⟩

def k0_cond2 (i : grid0.Coords) : BitVec 1 :=
  let arg2 : BitVec 32 := BitVec.ofNat 32 (i 2).val
  let c3_i32 : BitVec 32 := 3#32
  let v15 : BitVec 1 := Scalar.cmpi .eq arg2 c3_i32
  let v16 : BitVec 32 := Scalar.extui v15
  let c0_i32_10 : BitVec 32 := 0#32
  let v17 : BitVec 1 := Scalar.cmpi .ne v16 c0_i32_10
  v17

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4096_S1x4096 : S4096.ShapeCasts S1x4096
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  bitsLt_bf16_f32 : FTy.bits .bf16 < FTy.bits .f32
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  dot_S512x1024_S1024x1024_S512x1024_1_1_0_0_n_n_wf : DotDims.WF S512x1024 S1024x1024 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S4096x4096.size a
  hwx0_1 : ∀ i : grid0.Coords, EltTy.bits .f32 = 32 ∨ (Rect.block (s := S4096x4096) S1024x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S4096x4096.size a
  hwx0_2 : ∀ i : grid0.Coords, EltTy.bits .f32 = 32 ∨ (Rect.block (s := S4096x4096) S1024x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x4096.size a
  hwx0_3 : ∀ i : grid0.Coords, EltTy.bits .f32 = 32 ∨ (Rect.block (s := S1x4096) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x4096.size a
  hwx0_4 : ∀ i : grid0.Coords, EltTy.bits .f32 = 32 ∨ (Rect.block (s := S8192x4096) S512x1024.size (cc0_transform_4 i) (hinb0_4 i)).WholeWords (EltTy.packing .f32)

variable [Facts₀]

def dot_S512x1024_S1024x1024_S512x1024_1_1_0_0_n_n : DotDims S512x1024 S1024x1024 S512x1024 where
  lhsContracting := [1]
  rhsContracting := [1]
  lhsNonContracting := [0]
  rhsNonContracting := [0]
  lhsBatch := []
  rhsBatch := []
  wf := dot_S512x1024_S1024x1024_S512x1024_1_1_0_0_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 9
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096x4096, .f32⟩
  | .hbm, ⟨3, _⟩ => ⟨S4096, .f32⟩
  | .hbm, ⟨4, _⟩ => ⟨S4096x4096, .f32⟩
  | .hbm, ⟨5, _⟩ => ⟨S8192x4096, .f32⟩
  | .hbm, ⟨6, _⟩ => ⟨S1x4096, .f32⟩
  | .hbm, ⟨7, _⟩ => ⟨S8192x4096, .f32⟩
  | .hbm, ⟨8, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_1_0_0_n_n_wf : DotDims.WF S8192x4096 S4096x4096 S8192x4096 [1] [1] [0] [0] [] []

variable [Facts₀]

def dot_S8192x4096_S4096x4096_S8192x4096_1_1_0_0_n_n : DotDims S8192x4096 S4096x4096 S8192x4096 where
  lhsContracting := [1]
  rhsContracting := [1]
  lhsNonContracting := [0]
  rhsNonContracting := [0]
  lhsBatch := []
  rhsBatch := []
  wf := dot_S8192x4096_S4096x4096_S8192x4096_1_1_0_0_n_n_wf

class Facts : Prop extends Facts₀ where

variable [Facts]
-- ==== Proof.Pieces.lean ====
/-
  What one grid point leaves behind, in each of the body's three control cases, as the body's stored values
  of the blocks it loaded. Throughout, x0 is the data block, x1 the weight block, x2 the mask block, x3 the
  bias row block, and xs0 what the point before left in the accumulator.

  * First step of a reduction (the reset is taken): the accumulator is first stored as the zero block, then
    read back and stored again as that zero block updated with this step's block product. What remains is
    the update of the zero block: the later store covers the earlier one, and the update's own read of the
    accumulator sees the zero block just stored.
  * A middle step (neither branch taken): one store, the update of what the point before left.
  * The last step (the epilogue is taken): the accumulator is updated as in a middle step, and the output
    block is stored as the bias row added to the accumulator as just updated (the epilogue reads the
    accumulator after the update's store).

  Each statement holds for every float instance: nothing here looks inside the arithmetic.
-/
import proofs.«129377_j73718818668813_1_alg».proof.Proof.Gen.KernelIdeal.Frame
import Idealize.ShloMosaic.Lib.Pipeline.Value
import Idealize.ShloMosaic.Lib.Tactic

set_option maxRecDepth 16384

noncomputable section

namespace Cert.KernelIdeal.Pieces

open Cert.KernelIdeal Cert.KernelIdeal.Gen Idealize.ShloMosaic Idealize.ShloMosaic.TcCoe Idealize.ShloMosaic.Tactic Idealize.SL.Sem

variable {F : FTy → Type} [FloatOps F]

/-- Every store and load of the body is at offset (0, 0) of its whole buffer. -/
theorem origin : (![0, 0] : Fin 2 → Nat) = fun _ => 0 := funext fun a => by fin_cases a <;> rfl

/-- First step: the accumulator ends at the update of the zero block. -/
theorem scratch_first (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : cond0_0 i) (hc1 : ¬cond0_1 i)
    (x0 : Vec F S512x1024 .f32) (x1 : Vec F S1024x1024 .f32) (x2 : Vec F S1024x1024 .f32) (x3 : Vec F S1x1024 .f32) :
    sout0_A_0 c i arg3 harg3 arg4 harg4 arg5 harg5 arg6 harg6 arg7 harg7 arg8 harg8 hc0 hc1 x0 x1 x2 x3 = k0_pay2 x1 x2 x0 k0_pay1 := by
  unfold sout0_A_0
  rw [View.read_writes_eq_canon _ _ _ (scover0_A_0 c i arg3 harg3 arg4 harg4 arg5 harg5 arg6 harg6 arg7 harg7 arg8 harg8 hc0 hc1 x0 x1 x2 x3)]
  unfold kernelRun0_A
  dsimp only
  sl_unfold_words
  rw [View.canon_cons_unit_zero (S := S512x1024) origin, View.readCov_unit_zero (S := S512x1024) _ origin]
  simp only [View.readAt_eq_ld, harg3.read_unread, harg4.read_unread, harg5.read_unread, View.ld_unit_zero (S := S512x1024) origin, View.ld_unit_zero (S := S1024x1024) origin]

/-- Middle step: the accumulator ends at the update of what the point before left. -/
theorem scratch_middle (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : ¬cond0_1 i)
    (x0 : Vec F S512x1024 .f32) (x1 : Vec F S1024x1024 .f32) (x2 : Vec F S1024x1024 .f32) (x3 : Vec F S1x1024 .f32) (xs0 : Vec F S512x1024 .f32) :
    sout0_B_0 c i arg3 harg3 arg4 harg4 arg5 harg5 arg6 harg6 arg7 harg7 arg8 harg8 hc0 hc1 x0 x1 x2 x3 xs0 = k0_pay2 x1 x2 x0 xs0 := by
  unfold sout0_B_0
  rw [View.read_writes_eq_canon _ _ _ (scover0_B_0 c i arg3 harg3 arg4 harg4 arg5 harg5 arg6 harg6 arg7 harg7 arg8 harg8 hc0 hc1 x0 x1 x2 x3 xs0)]
  unfold kernelRun0_B
  dsimp only
  rw [View.canon_unit_zero origin]
  simp only [View.readAt_eq_ld, harg3.read_unread, harg4.read_unread, harg5.read_unread, harg8.read_unread, View.ld_unit_zero (S := S512x1024) origin, View.ld_unit_zero (S := S1024x1024) origin]

/-- Last step: the accumulator ends at the update of what the point before left … -/
theorem scratch_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .f32) (x2 : Vec F S1024x1024 .f32) (x3 : Vec F S1x1024 .f32) (xs0 : Vec F S512x1024 .f32) :
    sout0_C_0 c i arg3 harg3 arg4 harg4 arg5 harg5 arg6 harg6 arg7 harg7 arg8 harg8 hc0 hc1 x0 x1 x2 x3 xs0 = k0_pay2 x1 x2 x0 xs0 := by
  unfold sout0_C_0
  rw [View.read_writes_eq_canon _ _ _ (scover0_C_0 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg8.read_unread, View.ld_unit_zero (S := S512x1024) origin, View.ld_unit_zero (S := S1024x1024) origin]

/-- … and the output block at the bias row added to that updated accumulator. -/
theorem out_last (c : Dev nD) (i : grid0.Coords) (arg3 : Memref sig .tc .vmem S512x1024 .f32) (harg3 : arg3.IsWhole) (arg4 : Memref sig .tc .vmem S1024x1024 .f32) (harg4 : arg4.IsWhole) (arg5 : Memref sig .tc .vmem S1024x1024 .f32) (harg5 : arg5.IsWhole) (arg6 : Memref sig .tc .vmem S1x1024 .f32) (harg6 : arg6.IsWhole) (arg7 : Memref sig .tc .vmem S512x1024 .f32) (harg7 : arg7.IsWhole) (arg8 : Memref sig .tc .vmem S512x1024 .f32) (harg8 : arg8.IsWhole) (hc0 : ¬cond0_0 i) (hc1 : cond0_1 i)
    (x0 : Vec F S512x1024 .f32) (x1 : Vec F S1024x1024 .f32) (x2 : Vec F S1024x1024 .f32) (x3 : Vec F S1x1024 .f32) (xs0 : Vec F S512x1024 .f32) :
    out0_C_4 c i arg3 harg3 arg4 harg4 arg5 harg5 arg6 harg6 arg7 harg7 arg8 harg8 hc0 hc1 x0 x1 x2 x3 xs0 = k0_pay3 x3 (k0_pay2 x1 x2 x0 xs0) := by
  unfold out0_C_4
  rw [View.read_writes_eq_canon _ _ _ (cover0_C_4 c i arg3 harg3 arg4 harg4 arg5 harg5 arg6 harg6 arg7 harg7 arg8 harg8 hc0 hc1 x0 x1 x2 x3 xs0)]
  unfold kernelRun0_C
  dsimp only
  sl_unfold_words
  rw [View.canon_unit_zero origin]
  simp only [View.readAt_eq_ld, harg3.read_unread, harg4.read_unread, harg5.read_unread, harg6.read_unread, harg8.read_unread, View.ld_unit_zero (S := S512x1024) origin, View.ld_unit_zero (S := S1024x1024) origin, View.ld_unit_zero (S := S1x1024) origin, View.readCov_unit_zero (S := S512x1024) _ origin]

end Cert.KernelIdeal.Pieces

end
-- ==== Proof.Accum.lean ====
/-
  The reduction over the shared axis, point by point.

  The grid is 16 x 4 x 4 with the reduction coordinate innermost, so the points 4g, 4g+1, 4g+2, 4g+3 are the
  four steps of one output block's reduction. The accumulator is reset at 4g and carried from each step to the
  next; the output block is written at 4g+3 only. Unrolling the four steps, what point 4g+3 leaves in the
  output block is

      bias-epilogue( update_3( update_2( update_1( update_0( zero ))))),

  where update_k is the body's update with the data, weight and mask blocks of point 4g+k. The reduction has
  a fixed length of four, so this is four rewriting steps and no induction over the grid.
-/
import proofs.«129377_j73718818668813_1_alg».proof.Proof.Pieces

noncomputable section

namespace Cert.KernelIdeal.Accum

open Cert.KernelIdeal Cert.KernelIdeal.Gen Cert.KernelIdeal.Pieces Idealize.ShloMosaic Idealize.ShloMosaic.TcCoe Idealize.SL.Sem

variable {F : FTy → Type} [FloatOps F]
variable (m : (ℓ : Loc nD τ sig) → Buf (Elt F) ℓ)

/-- The blocks a point reads, at their literal shapes. -/
abbrev dataBlk (c : Dev nD) (t : Fin cfg0.N) : Vec F S512x1024 .f32 := iblk m c 0 t
abbrev weightBlk (c : Dev nD) (t : Fin cfg0.N) : Vec F S1024x1024 .f32 := iblk m c 1 t
abbrev maskBlk (c : Dev nD) (t : Fin cfg0.N) : Vec F S1024x1024 .f32 := iblk m c 2 t
abbrev biasBlk (c : Dev nD) (t : Fin cfg0.N) : Vec F S1x1024 .f32 := iblk m c 3 t

/-- One step of the reduction at point `t`: the body's update of the accumulator `acc` with that point's blocks. -/
abbrev step (c : Dev nD) (t : Fin cfg0.N) (acc : Vec F S512x1024 .f32) : Vec F S512x1024 .f32 :=
  k0_pay2 (weightBlk m c t) (maskBlk m c t) (dataBlk m c t) acc

/-- After a point that starts a reduction the accumulator holds the first step from zero. -/
theorem acc_first (c : Dev nD) (n : ℕ) (hn : n < cfg0.N) (h0 : n % 4 = 0) :
    (outsAt0 m c n hn).2 = step m c ⟨n, hn⟩ k0_pay1 := by
  have h1 : ¬(⟨n, hn⟩ : Fin cfg0.N).val % 4 = 3 := by dsimp only; omega
  rw [outsAt0_A m c ⟨n, hn⟩ h0 h1]
  dsimp only
  exact scratch_first (F := F) c (grid0.coords ⟨n, hn⟩) (ms0_0 ⟨n, hn⟩) (hs0_0 ⟨n, hn⟩) (ms0_1 ⟨n, hn⟩) (hs0_1 ⟨n, hn⟩) (ms0_2 ⟨n, hn⟩) (hs0_2 ⟨n, hn⟩) (ms0_3 ⟨n, hn⟩) (hs0_3 ⟨n, hn⟩) (ms0_4 ⟨n, hn⟩) (hs0_4 ⟨n, hn⟩) scM0_0 (Memref.isWhole_whole _) ((hcond0_0 ⟨n, hn⟩).mpr h0) (fun h => h1 ((hcond0_1 ⟨n, hn⟩).mp h)) (iblk m c 0 ⟨n, hn⟩) (iblk m c 1 ⟨n, hn⟩) (iblk m c 2 ⟨n, hn⟩) (iblk m c 3 ⟨n, hn⟩)

/-- After any later point of a reduction the accumulator holds one more step over what the point before left. -/
theorem acc_next (c : Dev nD) (n : ℕ) (hn : n + 1 < cfg0.N) (h0 : ¬(n + 1) % 4 = 0) :
    (outsAt0 m c (n + 1) hn).2 = step m c ⟨n + 1, hn⟩ (outsAt0 m c n (Nat.lt_of_succ_lt hn)).2 := by
  by_cases h1 : (n + 1) % 4 = 3
  · rw [outsAt0_C m c ⟨n + 1, hn⟩ h0 h1]
    dsimp only
    exact scratch_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2
  · rw [outsAt0_B m c ⟨n + 1, hn⟩ h0 h1]
    dsimp only
    exact scratch_middle (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2

/-- At the last point of a reduction the output block holds the epilogue of that point's step over what the
    point before left. -/
theorem out_at_last (c : Dev nD) (n : ℕ) (hn : n + 1 < cfg0.N) (h3 : (n + 1) % 4 = 3) :
    (outsAt0 m c (n + 1) hn).1 = k0_pay3 (biasBlk m c ⟨n + 1, hn⟩) (step m c ⟨n + 1, hn⟩ (outsAt0 m c n (Nat.lt_of_succ_lt hn)).2) := by
  have h0 : ¬(n + 1) % 4 = 0 := by omega
  rw [outsAt0_C m c ⟨n + 1, hn⟩ h0 h3]
  dsimp only
  exact out_last (F := F) c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) ((hcond0_1 ⟨n + 1, hn⟩).mpr h3) (iblk m c 0 ⟨n + 1, hn⟩) (iblk m c 1 ⟨n + 1, hn⟩) (iblk m c 2 ⟨n + 1, hn⟩) (iblk m c 3 ⟨n + 1, hn⟩) (outsAt0 m c n (Nat.lt_of_succ_lt hn)).2

/-- The reduction unrolled. With `b` the first point of a reduction (`b` a multiple of four), what point
    `b + 3` leaves in the output block is the epilogue over the four steps from zero, in point order. -/
theorem out_unrolled (c : Dev nD) (b : ℕ) (hb : b + 1 + 1 + 1 < cfg0.N) (h0 : b % 4 = 0) :
    (outsAt0 m c (b + 1 + 1 + 1) hb).1
      = k0_pay3 (biasBlk m c ⟨b + 1 + 1 + 1, hb⟩)
          (step m c ⟨b + 1 + 1 + 1, hb⟩
            (step m c ⟨b + 1 + 1, Nat.lt_of_succ_lt hb⟩
              (step m c ⟨b + 1, Nat.lt_of_succ_lt (Nat.lt_of_succ_lt hb)⟩
                (step m c ⟨b, Nat.lt_of_succ_lt (Nat.lt_of_succ_lt (Nat.lt_of_succ_lt hb))⟩ k0_pay1)))) := by
  rw [out_at_last m c (b + 1 + 1) hb (by omega),
    acc_next m c (b + 1) (Nat.lt_of_succ_lt hb) (by omega),
    acc_next m c b (Nat.lt_of_succ_lt (Nat.lt_of_succ_lt hb)) (by omega),
    acc_first m c b (Nat.lt_of_succ_lt (Nat.lt_of_succ_lt (Nat.lt_of_succ_lt hb))) h0]

end Cert.KernelIdeal.Accum

end
-- ==== Proof.Blocks.lean ====
/-
  Where each window's block sits in its array.

  Grid point t has coordinates (t / 16, t / 4 % 4, t % 4): output row block, output column block, reduction
  step. The data block at t is rows 512 * (t / 16) + p and shared positions 1024 * (t % 4) + l; the weight and
  mask blocks are rows 1024 * (t / 4 % 4) + q and the same shared positions; the bias row block is columns
  1024 * (t / 4 % 4) + q of the bias vector laid out as one row; the output block is rows 512 * (t / 16) + p and
  columns 1024 * (t / 4 % 4) + q. A block's coordinate on an axis is always block index * block extent + the
  coordinate inside the block.
-/
import proofs.«129377_j73718818668813_1_alg».proof.Proof.Accum
import Idealize.ShloMosaic.Lib.ValueIdx
import Idealize.ShloMosaic.Lib.Pipeline.Value
import Idealize.ShloMosaic.Lib.StableHlo.Run

noncomputable section

namespace Cert.KernelIdeal.Blocks

open Cert.KernelIdeal Cert.KernelIdeal.Gen Cert.KernelIdeal.Accum Idealize.ShloMosaic Idealize.ShloMosaic.TcCoe Idealize.SL.Sem
open Idealize.ShloMosaic.ValueIdx Idealize.ShloMosaic.StableHlo

variable {F : FTy → Type} [FloatOps F]
variable (m : (ℓ : Loc nD τ sig) → Buf (Elt F) ℓ)

/-- The five index maps in closed form, decided over the 256 grid points. -/
theorem index_maps : ∀ t : Fin cfg0.N,
    win0_0.index t (0 : Fin 2) = t.val / 16 ∧ win0_0.index t (1 : Fin 2) = t.val % 4
    ∧ win0_1.index t (0 : Fin 2) = t.val / 4 % 4 ∧ win0_1.index t (1 : Fin 2) = t.val % 4
    ∧ win0_2.index t (0 : Fin 2) = t.val / 4 % 4 ∧ win0_2.index t (1 : Fin 2) = t.val % 4
    ∧ win0_3.index t (0 : Fin 2) = 0 ∧ win0_3.index t (1 : Fin 2) = t.val / 4 % 4
    ∧ win0_4.index t (0 : Fin 2) = t.val / 16 ∧ win0_4.index t (1 : Fin 2) = t.val / 4 % 4 :=
  (by decide +kernel : ∀ t : Fin grid0.N, _)

/-- The data block at (p, l) is the data array at row 512 * (t / 16) + p, shared position 1024 * (t % 4) + l. -/
theorem dataBlk_apply (c : Dev nD) (t : Fin cfg0.N) (p : Fin 512) (l : Fin 1024) (r : Fin 8192) (x : Fin 4096)
    (hr : r.val = 512 * (t.val / 16) + p.val) (hx : x.val = 1024 * (t.val % 4) + l.val) :
    dataBlk m c t (ix2 p l) = m ((c : Thread nD τ).loc main_arg0) (ix2 r x) := by
  obtain ⟨e0, e1, -⟩ := index_maps t
  rw [← V_main_arg0 m c]
  show V m c main_arg0 (((cfg0.win 0).blk t).view.emb (ix2 p l)) = V m c main_arg0 (ix2 r x)
  refine congrArg (V m c main_arg0) (funext fun a => Fin.ext ?_)
  match a with
  | ⟨0, _⟩ => show win0_0.index t (0 : Fin 2) * 512 + 1 * p.val = r.val; omega
  | ⟨1, _⟩ => show win0_0.index t (1 : Fin 2) * 1024 + 1 * l.val = x.val; omega

/-- The weight block at (q, l) is the weight array at row 1024 * (t / 4 % 4) + q, shared position 1024 * (t % 4) + l. -/
theorem weightBlk_apply (c : Dev nD) (t : Fin cfg0.N) (q : Fin 1024) (l : Fin 1024) (o : Fin 4096) (x : Fin 4096)
    (ho : o.val = 1024 * (t.val / 4 % 4) + q.val) (hx : x.val = 1024 * (t.val % 4) + l.val) :
    weightBlk m c t (ix2 q l) = m ((c : Thread nD τ).loc main_arg1) (ix2 o x) := by
  obtain ⟨-, -, e0, e1, -⟩ := index_maps t
  rw [← V_main_arg1 m c]
  show V m c main_arg1 (((cfg0.win 1).blk t).view.emb (ix2 q l)) = V m c main_arg1 (ix2 o x)
  refine congrArg (V m c main_arg1) (funext fun a => Fin.ext ?_)
  match a with
  | ⟨0, _⟩ => show win0_1.index t (0 : Fin 2) * 1024 + 1 * q.val = o.val; omega
  | ⟨1, _⟩ => show win0_1.index t (1 : Fin 2) * 1024 + 1 * l.val = x.val; omega

/-- The mask block at (q, l) is the mask array at the same coordinates as the weight block's. -/
theorem maskBlk_apply (c : Dev nD) (t : Fin cfg0.N) (q : Fin 1024) (l : Fin 1024) (o : Fin 4096) (x : Fin 4096)
    (ho : o.val = 1024 * (t.val / 4 % 4) + q.val) (hx : x.val = 1024 * (t.val % 4) + l.val) :
    maskBlk m c t (ix2 q l) = m ((c : Thread nD τ).loc main_arg2) (ix2 o x) := by
  obtain ⟨-, -, -, -, e0, e1, -⟩ := index_maps t
  rw [← V_main_arg2 m c]
  show V m c main_arg2 (((cfg0.win 2).blk t).view.emb (ix2 q l)) = V m c main_arg2 (ix2 o x)
  refine congrArg (V m c main_arg2) (funext fun a => Fin.ext ?_)
  match a with
  | ⟨0, _⟩ => show win0_2.index t (0 : Fin 2) * 1024 + 1 * q.val = o.val; omega
  | ⟨1, _⟩ => show win0_2.index t (1 : Fin 2) * 1024 + 1 * l.val = x.val; omega

/-- The bias laid out as one row of 4096 columns, as the region finds it: the bias vector at the same flat
    position. -/
theorem biasRow_eq (c : Dev nD) :
    (V m c main_v0 : S1x4096.Idx → Elt F .f32) = shapeCast S1x4096 (m ((c : Thread nD τ).loc main_arg3)) shapeCasts_S4096_S1x4096 := by
  dsimp only [Gen.V, Gen.hostOps0]
  after_results
  rfl

/-- The bias row block at (0, q) is the bias vector at column 1024 * (t / 4 % 4) + q. -/
theorem biasBlk_apply (c : Dev nD) (t : Fin cfg0.N) (q : Fin 1024) (o : Fin 4096)
    (ho : o.val = 1024 * (t.val / 4 % 4) + q.val) :
    biasBlk m c t (ix2 (0 : Fin 1) q) = m ((c : Thread nD τ).loc main_arg3) (ix1 o) := by
  obtain ⟨-, -, -, -, -, -, e0, e1, -⟩ := index_maps t
  show V m c main_v0 (((cfg0.win 3).blk t).view.emb (ix2 (0 : Fin 1) q)) = _
  rw [biasRow_eq m c]
  refine shapeCast_apply _ shapeCasts_S4096_S1x4096 _ (ix1 o) ?_
  rw [Shape.rowMajor_val_one, Shape.rowMajor_val_two]
  show o.val = (win0_3.index t (0 : Fin 2) * 1 + 1 * (0 : Fin 1).val) * 4096 + (win0_3.index t (1 : Fin 2) * 1024 + 1 * q.val)
  have z : ((0 : Fin 1) : ℕ) = 0 := rfl
  omega

end Cert.KernelIdeal.Blocks

end
-- ==== Proof.Payloads.lean ====
/-
  The three values the kernel body stores, read at one index over the extended reals.

  * The reset stores the zero block: every entry is 0.
  * The update stores, at (p, q), the accumulator's entry plus the contraction over the block's 1024 shared
    positions of data(p, l) times the masked weight weight(q, l) * mask(q, l). The change of float format
    before the product is the identity on extended reals, and the product is taken into a zero accumulator,
    so nothing but the sum is added. Both operands are contracted on their second axis, which is why the
    weight block is read at (q, l) and not at (l, q).
  * The epilogue stores, at (p, q), the accumulator's entry plus the bias row's entry at column q: the row is
    repeated down the 512 rows of the block.
-/
import proofs.«129377_j73718818668813_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.Payload

open Cert.KernelIdeal Cert.KernelIdeal.Gen Idealize.ShloMosaic Idealize.ShloMosaic.ValueIdx

/-! ## The block product's operand indices -/

/-- The left operand is read in the output's row … -/
theorem lhs_row (i : S512x1024.Idx) (k : dot_S512x1024_S1024x1024_S512x1024_1_1_0_0_n_n.contr.Idx) :
    (dot_S512x1024_S1024x1024_S512x1024_1_1_0_0_n_n.lhsIdx i k 0).val = (i 0).val := by
  unfold DotDims.lhsIdx
  rw [dif_neg (show ¬(0 : Fin S512x1024.rank) ∈ dot_S512x1024_S1024x1024_S512x1024_1_1_0_0_n_n.lhsBatch by decide), dif_pos (show (0 : Fin S512x1024.rank) ∈ dot_S512x1024_S1024x1024_S512x1024_1_1_0_0_n_n.lhsNonContracting by decide)]
  rfl
/-- … at the contracted position; -/
theorem lhs_pos (i : S512x1024.Idx) (k : dot_S512x1024_S1024x1024_S512x1024_1_1_0_0_n_n.contr.Idx) :
    (dot_S512x1024_S1024x1024_S512x1024_1_1_0_0_n_n.lhsIdx i k 1).val = (k ⟨0, by decide⟩).val :=
  dot_S512x1024_S1024x1024_S512x1024_1_1_0_0_n_n.lhsIdx_val_of_single rfl i k
/-- the right operand in the row named by the output's column … -/
theorem rhs_row (i : S512x1024.Idx) (k : dot_S512x1024_S1024x1024_S512x1024_1_1_0_0_n_n.contr.Idx) :
    (dot_S512x1024_S1024x1024_S512x1024_1_1_0_0_n_n.rhsIdx i k 0).val = (i 1).val := by
  unfold DotDims.rhsIdx
  rw [dif_neg (show ¬(0 : Fin S1024x1024.rank) ∈ dot_S512x1024_S1024x1024_S512x1024_1_1_0_0_n_n.rhsBatch by decide), dif_pos (show (0 : Fin S1024x1024.rank) ∈ dot_S512x1024_S1024x1024_S512x1024_1_1_0_0_n_n.rhsNonContracting by decide)]
  rfl
/-- … at the same contracted position. -/
theorem rhs_pos (i : S512x1024.Idx) (k : dot_S512x1024_S1024x1024_S512x1024_1_1_0_0_n_n.contr.Idx) :
    (dot_S512x1024_S1024x1024_S512x1024_1_1_0_0_n_n.rhsIdx i k 1).val = (k ⟨0, by decide⟩).val :=
  dot_S512x1024_S1024x1024_S512x1024_1_1_0_0_n_n.rhsIdx_val_of_single rfl i k

/-- The block product into a zero accumulator, at (p, q): the sum over the 1024 shared positions of the left
    operand at (p, l) times the right operand at (q, l). -/
theorem blockProduct_apply (a : FVec Ideal S512x1024 .bf16) (b : FVec Ideal S1024x1024 .bf16) (p : Fin 512) (q : Fin 1024) :
    matmul dot_S512x1024_S1024x1024_S512x1024_1_1_0_0_n_n none a b (constant (F := Ideal) S512x1024 .f32 0x00000000#32) (ix2 p q)
      = ∑ l : Fin 1024, a (ix2 p l) * b (ix2 q l) := by
  simp only [matmul]
  rw [Ideal.matmul_constant_zero_apply, ← Equiv.sum_comp (contrEquiv1 dot_S512x1024_S1024x1024_S512x1024_1_1_0_0_n_n 1024 rfl rfl).symm]
  refine Finset.sum_congr rfl fun l _ => ?_
  have hl := contrEquiv1_symm_val dot_S512x1024_S1024x1024_S512x1024_1_1_0_0_n_n 1024 rfl rfl l
  have el : dot_S512x1024_S1024x1024_S512x1024_1_1_0_0_n_n.lhsIdx (ix2 p q) ((contrEquiv1 dot_S512x1024_S1024x1024_S512x1024_1_1_0_0_n_n 1024 rfl rfl).symm l) = ix2 p l := funext fun d => Fin.ext (by
    match d with
    | ⟨0, _⟩ => exact lhs_row _ _
    | ⟨1, _⟩ => exact (lhs_pos _ _).trans hl)
  have er : dot_S512x1024_S1024x1024_S512x1024_1_1_0_0_n_n.rhsIdx (ix2 p q) ((contrEquiv1 dot_S512x1024_S1024x1024_S512x1024_1_1_0_0_n_n 1024 rfl rfl).symm l) = ix2 q l := funext fun d => Fin.ext (by
    match d with
    | ⟨0, _⟩ => exact rhs_row _ _
    | ⟨1, _⟩ => exact (rhs_pos _ _).trans hl)
  rw [el, er]

/-! ## The three stored values -/

/-- The reset's value: zero everywhere. -/
theorem reset_apply (j : S512x1024.Idx) : k0_pay1 (F := Ideal) j = 0 := by
  unfold k0_pay1
  rw [shapeCast_self]
  exact Ideal.ofBits_zero_f32

/-- The update's value at (p, q): the accumulator there plus the block's contraction sum. -/
theorem update_apply (w mk : Vec Ideal S1024x1024 .f32) (d acc : Vec Ideal S512x1024 .f32) (p : Fin 512) (q : Fin 1024) :
    k0_pay2 (F := Ideal) w mk d acc (ix2 p q)
      = acc (ix2 p q) + ∑ l : Fin 1024, d (ix2 p l) * (w (ix2 q l) * mk (ix2 q l)) := by
  unfold k0_pay2
  rw [shapeCast_self]
  show acc (ix2 p q) + matmul dot_S512x1024_S1024x1024_S512x1024_1_1_0_0_n_n none (truncf .bf16 d bitsLt_bf16_f32) (truncf .bf16 (mulf w mk) bitsLt_bf16_f32) (constant (F := Ideal) S512x1024 .f32 0x00000000#32) (ix2 p q) = _
  rw [blockProduct_apply]
  rfl

/-- The epilogue's value at (p, q): the accumulator there plus the bias row at column q. -/
theorem epilogue_apply (b : Vec Ideal S1x1024 .f32) (acc : Vec Ideal S512x1024 .f32) (p : Fin 512) (q : Fin 1024) :
    k0_pay3 (F := Ideal) b acc (ix2 p q) = acc (ix2 p q) + b (ix2 (0 : Fin 1) q) := by
  unfold k0_pay3
  rw [shapeCast_self, shapeCast_self]
  show acc (ix2 p q) + broadcastTo S512x1024 b broadcasts_S1x1024_S512x1024 (ix2 p q) = _
  rw [broadcastTo_apply b broadcasts_S1x1024_S512x1024 (ix2 p q) (ix2 (0 : Fin 1) q) (fun a => match a with
    | ⟨0, _⟩ => by show (0 : Nat) = if (1 : Nat) = 1 then 0 else _; rw [if_pos rfl]
    | ⟨1, _⟩ => by show q.val = if (1024 : Nat) = 1 then 0 else q.val; rw [if_neg (by decide)])]

end Cert.KernelIdeal.Payload

end
-- ==== Proof.LibSumBlocks.lean ====
/- A sum over a flat row-major index is the nested sum over its coordinates. -/
import Mathlib.Data.Fintype.BigOperators
import Mathlib.Logic.Equiv.Fin.Basic

/-- The row-major position of the pair `(a, b)` in an `m × n` grid lies below `m * n`. -/
theorem Fin.rowMajor_lt {m n : ℕ} (a : Fin m) (b : Fin n) : a.val * n + b.val < m * n :=
  calc a.val * n + b.val < a.val * n + n := Nat.add_lt_add_left b.isLt _
    _ = (a.val + 1) * n := (Nat.succ_mul _ _).symm
    _ ≤ m * n := Nat.mul_le_mul_right n a.isLt

/-- Two axes: a sum over the flat index of an `m × n` grid is the sum over the rows of the sums along each row.
    The pairs `(a, b)` are in bijection with the flat positions `a * n + b`, and a sum over pairs is an iterated sum. -/
theorem Fin.sum_rowMajor2 {M : Type*} [AddCommMonoid M] (m n : ℕ) (f : Fin (m * n) → M) :
    ∑ e, f e = ∑ a : Fin m, ∑ b : Fin n, f ⟨a.val * n + b.val, Fin.rowMajor_lt a b⟩ := by
  rw [← Fintype.sum_prod_type' (f := fun (a : Fin m) (b : Fin n) => f ⟨a.val * n + b.val, Fin.rowMajor_lt a b⟩)]
  exact (Fintype.sum_equiv finProdFinEquiv (fun p : Fin m × Fin n => f ⟨p.1.val * n + p.2.val, Fin.rowMajor_lt p.1 p.2⟩) f
    (fun p => congrArg f (Fin.ext (by simp [Nat.mul_comm, Nat.add_comm])))).symm

/-- Four axes: a sum over the flat row-major index of an `n0 × n1 × n2 × n3` grid is the nested sum over its four
    coordinates, the last axis innermost — the two-axis statement applied to the last axis, then to the third, then to
    the second. -/
theorem Fin.sum_rowMajor4 {M : Type*} [AddCommMonoid M] (n0 n1 n2 n3 : ℕ) (f : Fin (n0 * n1 * n2 * n3) → M) :
    ∑ e, f e = ∑ a : Fin n0, ∑ b : Fin n1, ∑ c : Fin n2, ∑ d : Fin n3,
      f ⟨((a.val * n1 + b.val) * n2 + c.val) * n3 + d.val,
        Fin.rowMajor_lt (⟨(a.val * n1 + b.val) * n2 + c.val,
          Fin.rowMajor_lt (⟨a.val * n1 + b.val, Fin.rowMajor_lt a b⟩ : Fin (n0 * n1)) c⟩ : Fin (n0 * n1 * n2)) d⟩ :=
  (Fin.sum_rowMajor2 (n0 * n1 * n2) n3 f).trans <|
  (Fin.sum_rowMajor2 (n0 * n1) n2 (fun x => ∑ d : Fin n3, f ⟨x.val * n3 + d.val, Fin.rowMajor_lt x d⟩)).trans <|
  Fin.sum_rowMajor2 n0 n1 (fun y => ∑ c : Fin n2, ∑ d : Fin n3,
    f ⟨(y.val * n2 + c.val) * n3 + d.val, Fin.rowMajor_lt (⟨y.val * n2 + c.val, Fin.rowMajor_lt y c⟩ : Fin (n0 * n1 * n2)) d⟩)

/-- The instance used for the edge arrays: 3200000 = 2 · 2 · 6250 · 128 entries, read as two halves of two blocks of
    6250 rows of 128 lanes. -/
theorem sum_flat_2x2x6250x128 {M : Type*} [AddCommMonoid M] (f : Fin 3200000 → M) :
    ∑ e, f e = ∑ a : Fin 2, ∑ b : Fin 2, ∑ r : Fin 6250, ∑ l : Fin 128,
      f ⟨((a.val * 2 + b.val) * 6250 + r.val) * 128 + l.val, by omega⟩ :=
  Fin.sum_rowMajor4 2 2 6250 128 f
-- ==== Proof.Spec.lean ====
/-
  The masked linear layer as one function of its four arrays, and the one law of sums that joins a reduction
  carried block by block to the whole reduction.

  For data : [8192, 4096], weight, mask : [4096, 4096], bias : [4096] the layer's entry at row r and column c is
      (sum over x < 4096 of data(r, x) * (mask(c, x) * weight(c, x))) + bias(c).
  A contraction axis of 4096 entries cut into four consecutive blocks of 1024 is summed block by block into an
  accumulator that starts at zero; since addition of extended reals is associative and has zero as its unit,
  the accumulator after the fourth block is the sum over the whole axis. No finiteness is needed: the law uses
  no cancellation and no distributivity.
-/
import Idealize.ShloMosaic.PureOps.Ideal
import Idealize.ShloMosaic.Lib.ValueIdx
import proofs.«129377_j73718818668813_1_alg».proof.Proof.LibSumBlocks

noncomputable section

open scoped BigOperators

namespace Cert.MaskedLinear

open Idealize.ShloMosaic Idealize.ShloMosaic.ValueIdx

/-- Position `l` of block `k` on an axis of four blocks of 1024: the flat position `k * 1024 + l`. -/
abbrev blockPos (k : Fin 4) (l : Fin 1024) : Fin 4096 := ⟨k.val * 1024 + l.val, by have := k.isLt; have := l.isLt; omega⟩

/-- The layer: entry (r, c) is the sum over the shared axis of data(r, x) times the masked weight
    mask(c, x) * weight(c, x), plus bias(c). -/
def G (data : (⟨2, ![8192, 4096]⟩ : Shape).Idx → EReal) (weight mask : (⟨2, ![4096, 4096]⟩ : Shape).Idx → EReal)
    (bias : (⟨1, ![4096]⟩ : Shape).Idx → EReal) : (⟨2, ![8192, 4096]⟩ : Shape).Idx → EReal :=
  fun i => (∑ x : Fin 4096, data (ix2 (i 0) x) * (mask (ix2 (i 1) x) * weight (ix2 (i 1) x))) + bias (ix1 (i 1))

/-- A sum over the 4096 positions is the sum over the four blocks of the sums inside each block. -/
theorem sum_blocks {M : Type*} [AddCommMonoid M] (f : Fin 4096 → M) :
    ∑ x, f x = ∑ k : Fin 4, ∑ l : Fin 1024, f (blockPos k l) :=
  Fin.sum_rowMajor2 4 1024 f

/-- The accumulator after the four blocks, started at zero and increased by one block's sum at a time, is the
    sum over the whole axis. -/
theorem chain_eq_sum {M : Type*} [AddCommMonoid M] (f : Fin 4096 → M) :
    (((0 + ∑ l : Fin 1024, f (blockPos 0 l)) + ∑ l : Fin 1024, f (blockPos 1 l)) + ∑ l : Fin 1024, f (blockPos 2 l))
      + ∑ l : Fin 1024, f (blockPos 3 l) = ∑ x, f x := by
  rw [sum_blocks f, Fin.sum_univ_four, zero_add]

end Cert.MaskedLinear

end
-- ==== Proof.Whole.lean ====
/-
  The kernel's result array, as one function of the four argument arrays, over the extended reals.

  At the last point t of a reduction (t % 4 = 3) the pipeline writes the output block back. Entry (p, q) of
  that block is the four-step accumulation from zero of the block contraction sums, plus the bias entry:
  the steps' blocks are the consecutive quarters of the shared axis of data row 512 * (t / 16) + p and of
  weight and mask row 1024 * (t / 4 % 4) + q, so by the law of sums the accumulation is the sum over the
  whole shared axis, and the entry is the layer's entry at that row and column. The kernel multiplies
  weight by mask where the layer is written mask by weight: multiplication of extended reals is commutative.
  The 16 x 4 output blocks tile the 8192 x 4096 array, so the array ends holding the layer everywhere.
-/
import proofs.«129377_j73718818668813_1_alg».proof.Proof.Blocks
import proofs.«129377_j73718818668813_1_alg».proof.Proof.Payloads
import proofs.«129377_j73718818668813_1_alg».proof.Proof.Spec
import proofs.«129377_j73718818668813_1_alg».proof.Proof.Gen.KernelIdeal.Value

noncomputable section

open scoped BigOperators

namespace Cert.KernelIdeal.Whole

open Cert.KernelIdeal Cert.KernelIdeal.Gen Cert.KernelIdeal.Accum Cert.KernelIdeal.Blocks Cert.KernelIdeal.Payload Cert.MaskedLinear
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The four argument arrays as launched, at their literal shapes. -/
abbrev dataArr (c : Dev nD) : Vec Ideal S8192x4096 .f32 := m ((c : Thread nD τ).loc main_arg0)
abbrev weightArr (c : Dev nD) : Vec Ideal S4096x4096 .f32 := m ((c : Thread nD τ).loc main_arg1)
abbrev maskArr (c : Dev nD) : Vec Ideal S4096x4096 .f32 := m ((c : Thread nD τ).loc main_arg2)
abbrev biasArr (c : Dev nD) : Vec Ideal S4096 .f32 := m ((c : Thread nD τ).loc main_arg3)

/-- The layer of the four argument arrays as launched. -/
abbrev layer (c : Dev nD) : Buf (Elt Ideal) ((c : Thread nD τ).loc main_v1) :=
  G (dataArr m c) (weightArr m c) (maskArr m c) (biasArr m c)

/-- One term of the layer's sum at row r, column o: data(r, x) * (mask(o, x) * weight(o, x)). -/
abbrev term (c : Dev nD) (r : Fin 8192) (o : Fin 4096) (x : Fin 4096) : EReal :=
  dataArr m c (ix2 r x) * (maskArr m c (ix2 o x) * weightArr m c (ix2 o x))

/-- One reduction step at (p, q): the accumulator there plus the contraction sum of the point's blocks. -/
theorem step_apply (c : Dev nD) (t : Fin cfg0.N) (acc : Vec Ideal S512x1024 .f32) (p : Fin 512) (q : Fin 1024) :
    step m c t acc (ix2 p q)
      = acc (ix2 p q) + ∑ l : Fin 1024, dataBlk m c t (ix2 p l) * (weightBlk m c t (ix2 q l) * maskBlk m c t (ix2 q l)) :=
  update_apply (weightBlk m c t) (maskBlk m c t) (dataBlk m c t) acc p q

/-- The contraction sum of the blocks of a point at reduction step k is the sum of the layer's terms over the
    k-th quarter of the shared axis. -/
theorem blockSum_eq (c : Dev nD) (t : Fin cfg0.N) (k : Fin 4) (hk : t.val % 4 = k.val) (p : Fin 512) (q : Fin 1024)
    (r : Fin 8192) (o : Fin 4096) (hr : r.val = 512 * (t.val / 16) + p.val) (ho : o.val = 1024 * (t.val / 4 % 4) + q.val) :
    ∑ l : Fin 1024, dataBlk m c t (ix2 p l) * (weightBlk m c t (ix2 q l) * maskBlk m c t (ix2 q l))
      = ∑ l : Fin 1024, term m c r o (blockPos k l) := by
  refine Finset.sum_congr rfl fun l _ => ?_
  have hx : (blockPos k l).val = 1024 * (t.val % 4) + l.val := by show k.val * 1024 + l.val = _; omega
  rw [dataBlk_apply m c t p l r (blockPos k l) hr hx, weightBlk_apply m c t q l o (blockPos k l) ho hx,
    maskBlk_apply m c t q l o (blockPos k l) ho hx]
  exact congrArg _ (mul_comm _ _)

/-- What a flushing point writes back is its block of the layer. -/
theorem flushed_eq (c : Dev nD) (t : Fin cfg0.N) (hf : (cfg0.win 4).flush t = true) :
    (dats m 0 c).flushed 4 t = ((cfg0.win 4).blk t).view.read (Elt Ideal) (layer m c) := by
  have h3 : t.val % 4 = 3 := (flush0_4 t).mp hf
  obtain ⟨n, hn⟩ := t
  obtain ⟨b, rfl⟩ : ∃ b, n = b + 1 + 1 + 1 := ⟨n - 3, by dsimp only at h3; omega⟩
  have hN : b + 1 + 1 + 1 < 256 := lt_of_lt_of_eq hn (show cfg0.N = 256 from N_0)
  have hb0 : b % 4 = 0 := by dsimp only at h3; omega
  obtain ⟨-, -, -, -, -, -, -, -, e0, e1⟩ := index_maps ⟨b + 1 + 1 + 1, hn⟩
  rw [Cert.KernelIdeal.Value.flushed4]
  funext j
  obtain ⟨p, q, rfl⟩ : ∃ (p : Fin 512) (q : Fin 1024), j = ix2 p q := ⟨j 0, j 1, eq_ix2 j⟩
  -- the entry's row and column in the whole array
  obtain ⟨r, hr⟩ : ∃ r : Fin 8192, r.val = 512 * ((b + 1 + 1 + 1) / 16) + p.val :=
    ⟨⟨512 * ((b + 1 + 1 + 1) / 16) + p.val, by have := p.isLt; omega⟩, rfl⟩
  obtain ⟨o, ho⟩ : ∃ o : Fin 4096, o.val = 1024 * ((b + 1 + 1 + 1) / 4 % 4) + q.val :=
    ⟨⟨1024 * ((b + 1 + 1 + 1) / 4 % 4) + q.val, by have := q.isLt; omega⟩, rfl⟩
  have hemb : ((cfg0.win 4).blk ⟨b + 1 + 1 + 1, hn⟩).view.emb (ix2 p q) = ix2 r o := funext fun a => Fin.ext (by
    match a with
    | ⟨0, _⟩ => show win0_4.index ⟨b + 1 + 1 + 1, hn⟩ (0 : Fin 2) * 512 + 1 * p.val = r.val; rw [e0, hr]; dsimp only; omega
    | ⟨1, _⟩ => show win0_4.index ⟨b + 1 + 1 + 1, hn⟩ (1 : Fin 2) * 1024 + 1 * q.val = o.val; rw [e1, ho]; dsimp only; omega)
  show (outsAt0 m c (b + 1 + 1 + 1) hn).1 (ix2 p q) = layer m c (((cfg0.win 4).blk ⟨b + 1 + 1 + 1, hn⟩).view.emb (ix2 p q))
  rw [hemb, out_unrolled m c b hn hb0]
  rw [epilogue_apply, step_apply, step_apply, step_apply, step_apply, reset_apply]
  rw [blockSum_eq m c ⟨b + 1 + 1 + 1, hn⟩ 3 (by dsimp only; omega) p q r o (by dsimp only; omega) (by dsimp only; omega),
    blockSum_eq m c ⟨b + 1 + 1, Nat.lt_of_succ_lt hn⟩ 2 (by dsimp only; omega) p q r o (by dsimp only; omega) (by dsimp only; omega),
    blockSum_eq m c ⟨b + 1, Nat.lt_of_succ_lt (Nat.lt_of_succ_lt hn)⟩ 1 (by dsimp only; omega) p q r o (by dsimp only; omega) (by dsimp only; omega),
    blockSum_eq m c ⟨b, Nat.lt_of_succ_lt (Nat.lt_of_succ_lt (Nat.lt_of_succ_lt hn))⟩ 0 (by dsimp only; omega) p q r o (by dsimp only; omega) (by dsimp only; omega)]
  rw [chain_eq_sum (term m c r o), biasBlk_apply m c ⟨b + 1 + 1 + 1, hn⟩ q o (by dsimp only; omega)]
  rfl

/-- An index of the array is in point `t`'s output block iff each coordinate is in the block's range on its axis. -/
theorem mem_blk (t : Fin cfg0.N) (i : S8192x4096.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v1).slice (win0_4.rect t)).set ↔ _
  rw [View.set_slice_whole, Rect.mem_set_unit]
  exact Iff.rfl

/-- Every entry of the array lies in the output block of the last point of its block's reduction. -/
theorem covered (i : S8192x4096.Idx) : ∃ t : Fin cfg0.N, (cfg0.win 4).flush t = true ∧ i ∈ ((cfg0.win 4).blk t).view.set := by
  have hi0 : (i 0).val < 8192 := (i 0).isLt
  have hi1 : (i 1).val < 4096 := (i 1).isLt
  have hN : cfg0.N = 256 := N_0
  let t : Fin cfg0.N := ⟨16 * ((i 0).val / 512) + 4 * ((i 1).val / 1024) + 3, by rw [hN]; omega⟩
  obtain ⟨-, -, -, -, -, -, -, -, e0, e1⟩ := index_maps t
  have ht : t.val = 16 * ((i 0).val / 512) + 4 * ((i 1).val / 1024) + 3 := rfl
  refine ⟨t, (flush0_4 t).mpr (by rw [ht]; omega), ?_⟩
  rw [mem_blk]
  intro a
  match a with
  | ⟨0, _⟩ => show win0_4.index t (0 : Fin 2) * 512 ≤ (i 0).val ∧ (i 0).val < win0_4.index t (0 : Fin 2) * 512 + 512; rw [e0, ht]; omega
  | ⟨1, _⟩ => show win0_4.index t (1 : Fin 2) * 1024 ≤ (i 1).val ∧ (i 1).val < win0_4.index t (1 : Fin 2) * 1024 + 1024; rw [e1, ht]; omega

/-- The array after the run is the layer. -/
theorem final (c : Dev nD) : (dats m 0 c).arrAt 4 cfg0.N = layer m c :=
  (dats m 0 c).arrAt_eq_of_cover 4 (layer m c) (flushed_eq m c) covered

/-- The run, read: the result array at the layer of the arguments, the arguments unchanged. -/
theorem run : θ_run defs (onTc (τ := τ) (main (F := Ideal))) ⟨m, fun _ => 0, ρ⟩ fun r => ∀ c : Dev nD,
      r.2.mem ((c : Thread nD τ).loc main_v1) = layer m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.KernelIdeal.Whole

end
-- ==== Proof.RefLayer.lean ====
/-
  The reference program's result, over the extended reals, is the layer.

  The reference multiplies mask by weight entry by entry, contracts the data with that product over the second
  axis of both, and adds the bias vector repeated down the rows. Read at row r and column o this is the sum
  over x of data(r, x) * (mask(o, x) * weight(o, x)), plus bias(o): the layer's entry, term for term.
-/
import proofs.«129377_j73718818668813_1_alg».proof.Proof.Gen.ReferenceIdeal.Read
import proofs.«129377_j73718818668813_1_alg».proof.Proof.Spec

noncomputable section

open scoped BigOperators

namespace Cert.ReferenceIdeal.Layer

open Cert.ReferenceIdeal Cert.ReferenceIdeal.Gen Cert.ReferenceIdeal.Read Cert.MaskedLinear
open Idealize.ShloMosaic Idealize.ShloMosaic.ValueIdx

/-- The data is read at the output's row and the contracted position, -/
theorem data_at (i : S8192x4096.Idx) (x : Fin 4096) : lidx_main_v1 i x = ix2 (i 0) x :=
  funext fun a => Fin.ext (by match a with | ⟨0, _⟩ => rfl | ⟨1, _⟩ => rfl)
/-- the masked weight at the row named by the output's column and the contracted position, -/
theorem weight_at (i : S8192x4096.Idx) (x : Fin 4096) : ridx_main_v1 i x = ix2 (i 1) x :=
  funext fun a => Fin.ext (by match a with | ⟨0, _⟩ => rfl | ⟨1, _⟩ => rfl)
/-- and the bias at the output's column. -/
theorem bias_at (i : S8192x4096.Idx) : idx_main_v2 (idx_main_v3 i) = ix1 (i 1) :=
  funext fun a => Fin.ext (by match a with | ⟨0, _⟩ => rfl)

/-- The reference's last stage is the layer of its four arguments. -/
theorem reference_eq (data : (⟨S8192x4096, .f32⟩ : BufTy).Contents (Elt Ideal)) (weight mask : (⟨S4096x4096, .f32⟩ : BufTy).Contents (Elt Ideal))
    (bias : (⟨S4096, .f32⟩ : BufTy).Contents (Elt Ideal)) :
    val_main_v4 (F := Ideal) data weight mask bias = G data weight mask bias := by
  funext i
  rw [val_main_v4_apply, val_main_v1_apply, val_main_v3_apply, val_main_v2_apply, bias_at]
  simp only [val_main_v0_apply, data_at, weight_at]
  rfl

end Cert.ReferenceIdeal.Layer

end
-- ==== Proof.lean ====
/-
  A masked linear layer: out = data * (mask ∘ weight)^T + bias, with data : [8192, 4096], weight and mask :
  [4096, 4096], bias : [4096]. The kernel tiles the output into 16 x 4 blocks of 512 x 1024 and the shared axis
  into four blocks of 1024; for each output block it zeroes an accumulator, adds one block product per step of
  the shared axis, and on the last step writes accumulator plus bias to the output. The reference forms
  mask * weight, contracts the data with it over the whole shared axis at once, and adds the bias.

  Over the extended reals the two agree entry by entry. A change of float format is the identity, so each block
  product is the exact sum of data(r, x) * (weight(o, x) * mask(o, x)) over its quarter of the shared axis;
  addition is associative with unit zero, so the accumulator after the four quarters is the sum over the whole
  axis; multiplication is commutative, so weight * mask is mask * weight. None of these laws needs the inputs
  to be finite, and the proof does not open the precondition.

  The three programs terminate without faulting and leave their arguments unchanged: for the two kernel
  programs this is the generated frame; for the reference it is its generated run with the result dropped.
  The idealization rewrote no operation, so there is nothing to preserve.
-/
import proofs.«129377_j73718818668813_1_alg».proof.Defs
import proofs.«129377_j73718818668813_1_alg».proof.Proof.Gen.Kernel
import proofs.«129377_j73718818668813_1_alg».proof.Proof.Gen.Kernel.Skeleton
import proofs.«129377_j73718818668813_1_alg».proof.Proof.Gen.Kernel.Launch
import proofs.«129377_j73718818668813_1_alg».proof.Proof.Gen.Kernel.Points
import proofs.«129377_j73718818668813_1_alg».proof.Proof.Gen.Kernel.Frame
import proofs.«129377_j73718818668813_1_alg».proof.Proof.Gen.KernelIdeal
import proofs.«129377_j73718818668813_1_alg».proof.Proof.Gen.KernelIdeal.Skeleton
import proofs.«129377_j73718818668813_1_alg».proof.Proof.Gen.KernelIdeal.Launch
import proofs.«129377_j73718818668813_1_alg».proof.Proof.Gen.KernelIdeal.Points
import proofs.«129377_j73718818668813_1_alg».proof.Proof.Gen.KernelIdeal.Frame
import proofs.«129377_j73718818668813_1_alg».proof.Proof.Gen.KernelIdeal.Value
import proofs.«129377_j73718818668813_1_alg».proof.Proof.Gen.ReferenceIdeal
import proofs.«129377_j73718818668813_1_alg».proof.Proof.Gen.ReferenceIdeal.Run
import proofs.«129377_j73718818668813_1_alg».proof.Proof.Gen.ReferenceIdeal.Read
import proofs.«129377_j73718818668813_1_alg».proof.Proof.Gen.Pre_finite_inputs
import proofs.«129377_j73718818668813_1_alg».proof.Proof.Whole
import proofs.«129377_j73718818668813_1_alg».proof.Proof.RefLayer
import Idealize.ShloMosaic.Adequacy
import Idealize.ShloMosaic.Init

noncomputable section

namespace Cert.Proof

open Idealize.ShloMosaic Idealize.SL.Sem

/-- The kernel as printed runs, and leaves its arguments as they were. -/
theorem frame_kernel : Cert.frame_Kernel := fun m ρ _ => Cert.Kernel.Gen.frame m ρ

/-- So does the kernel read over the extended reals. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation was rewritten. -/
theorem preserves : Cert.preserves_Kernel_KernelIdeal := trivial

/-- From memories that agree on the four arguments, the kernel's result array and the reference's both end
    holding the layer of those arguments. -/
theorem algebraic : Cert.algebraic_KernelIdeal_ReferenceIdeal := by
  intro m ρ m' ρ' _ hagree
  refine ⟨fun c => Cert.KernelIdeal.Whole.layer m c, Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v4_eq, Cert.ReferenceIdeal.Layer.reference_eq,
    (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
